-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : IVec S32x1x1024x1024 32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S2x1x21 : Shape := ⟨3, ![2, 1, 21]⟩
abbrev S1x1x128x1024 : Shape := ⟨4, ![1, 1, 128, 1024]⟩
abbrev S1x1x21 : Shape := ⟨3, ![1, 1, 21]⟩
abbrev S32x2 : Shape := ⟨2, ![32, 2]⟩
abbrev S128x1024 : Shape := ⟨2, ![128, 1024]⟩
abbrev S32x1x1 : Shape := ⟨3, ![32, 1, 1]⟩
abbrev S1x128x1024 : Shape := ⟨3, ![1, 128, 1024]⟩
abbrev S32x128x1024 : Shape := ⟨3, ![32, 128, 1024]⟩
abbrev S32x128 : Shape := ⟨2, ![32, 128]⟩
abbrev S32 : Shape := ⟨1, ![32]⟩
abbrev S32x1 : Shape := ⟨2, ![32, 1]⟩
abbrev S21x1 : Shape := ⟨2, ![21, 1]⟩
abbrev S21 : Shape := ⟨1, ![21]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .i32⟩
  | .hbm, ⟨2, _⟩ => ⟨S2x1x21, .f32⟩
  | .hbm, ⟨3, _⟩ => ⟨S2x1x21, .f32⟩
  | .hbm, ⟨4, _⟩ => ⟨S_, .f32⟩
  | .hbm, ⟨5, _⟩ => ⟨S21, .f32⟩
  | .hbm, ⟨6, _⟩ => ⟨S_, .f32⟩
  | .hbm, ⟨7, _⟩ => ⟨S21, .f32⟩
  | .hbm, ⟨8, _⟩ => ⟨S_, .f32⟩
  | .hbm, ⟨9, _⟩ => ⟨S21, .f32⟩
  | .hbm, ⟨10, _⟩ => ⟨S21, .f32⟩
  | .hbm, ⟨11, _⟩ => ⟨S21, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .i32⟩
  | .local _ .vmem, ⟨3, _⟩ => ⟨S1x1x128x1024, .i32⟩
  | .local _ .vmem, ⟨4, _⟩ => ⟨S1x1x21, .f32⟩
  | .local _ .vmem, ⟨5, _⟩ => ⟨S1x1x21, .f32⟩
  | .local _ .vmem, ⟨6, _⟩ => ⟨S1x1x21, .f32⟩
  | .local _ .vmem, ⟨7, _⟩ => ⟨S1x1x21, .f32⟩
  | .local _ .vmem, ⟨8, _⟩ => ⟨S32x2, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 8], ![false, false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let arg2 : BitVec 32 := BitVec.ofNat 32 (i 2).val
  let c7_i32 : BitVec 32 := 7#32
  let v40 : BitVec 1 := Scalar.cmpi .eq arg2 c7_i32
  let v41 : BitVec 1 := Scalar.andi v39 v40
  let v42 : BitVec 32 := Scalar.extui v41
  let c0_i32_19 : BitVec 32 := 0#32
  let v43 : BitVec 1 := Scalar.cmpi .ne v42 c0_i32_19
  v43

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S1x1x128x1024_S1x1x128x1024_0_0_0_0 : ∀ a, (![0, 0, 0, 0] : Fin 4 → Nat) a + S1x1x128x1024.size a ≤ S1x1x128x1024.size a
  h_S1x1x128x1024 : 0 < S1x1x128x1024.numel
  shapeCasts_S1x1x128x1024_S128x1024 : S1x1x128x1024.ShapeCasts S128x1024
  iota_S32x1x1_d0_w32 : S32x1x1.Iotas .tc 32 [0]
  shapeCasts_S128x1024_S1x128x1024 : S128x1024.ShapeCasts S1x128x1024
  broadcasts_S1x128x1024_S32x128x1024 : S1x128x1024.Broadcasts S32x128x1024
  broadcasts_S32x1x1_S32x128x1024 : S32x1x1.Broadcasts S32x128x1024
  reduces_S32x128x1024_S32x128 : S32x128x1024.Reduces [2] S32x128
  reduces_S32x128_S32 : S32x128.Reduces [1] S32
  shapeCasts_S1x128x1024_S1x128x1024 : S1x128x1024.ShapeCasts S1x128x1024
  shapeCasts_S32_S32x1 : S32.ShapeCasts S32x1
  concatenates_S32x1_S32x1_S32x2_d1 : Shape.Concatenates [S32x1, S32x1] S32x2 1
  slices_S32x2_o0_0_S21x1 : S32x2.Slices ![0, 0] S21x1
  shapeCasts_S21x1_S21 : S21x1.ShapeCasts S21
  inb_S1x1x21_S1x1x21_0_0_0 : ∀ a, (![0, 0, 0] : Fin 3 → Nat) a + S1x1x21.size a ≤ S1x1x21.size a
  h_S1x1x21 : 0 < S1x1x21.numel
  shapeCasts_S1x1x21_S21 : S1x1x21.ShapeCasts S21
  shapeCasts_S21_S1x1x21 : S21.ShapeCasts S1x1x21
  slices_S32x2_o0_1_S21x1 : S32x2.Slices ![0, 1] S21x1
  reducesTo_S2x1x21_S21_d0_1 : S2x1x21.ReducesTo [0, 1] S21
  h_S_ : 0 < S_.numel
  bcast_S_S21 : S_.BroadcastsInDim S21 (![] : Fin 0 → Fin S21.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x1024.size a ≤ S32x1x1024x1024.size a
  hwx0_0 : ∀ i : grid0.Coords, EltTy.bits .f32 = 32 ∨ (Rect.block (s := S32x1x1024x1024) S1x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x1024.size a ≤ S32x1x1024x1024.size a
  hwx0_1 : ∀ i : grid0.Coords, EltTy.bits .i32 = 32 ∨ (Rect.block (s := S32x1x1024x1024) S1x1x128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x21.size a ≤ S2x1x21.size a
  hwx0_2 : ∀ i : grid0.Coords, EltTy.bits .f32 = 32 ∨ (Rect.block (s := S2x1x21) S1x1x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x21.size a ≤ S2x1x21.size a
  hwx0_3 : ∀ i : grid0.Coords, EltTy.bits .f32 = 32 ∨ (Rect.block (s := S2x1x21) S1x1x21.size (cc0_transform_3 i) (hinb0_3 i)).WholeWords (EltTy.packing .f32)

variable [Facts₀]

abbrev win0_0 : Pipeline.Window sig grid0 :=
  Pipeline.Window.ofSpec (Memref.whole main_arg0) S1x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x21.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x21.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x1x1024x1024 : Shape := ⟨4, ![32, 1, 1024, 1024]⟩
abbrev S33554432 : Shape := ⟨1, ![33554432]⟩
abbrev S_ : Shape := ⟨0, ![]⟩
abbrev S21 : Shape := ⟨1, ![21]⟩
abbrev S33554432x1 : Shape := ⟨2, ![33554432, 1]⟩

abbrev nBuf : Space → Nat
  | .hbm => 21
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .i32⟩
  | .hbm, ⟨2, _⟩ => ⟨S32x1x1024x1024, .f32⟩
  | .hbm, ⟨3, _⟩ => ⟨S32x1x1024x1024, .f32⟩
  | .hbm, ⟨4, _⟩ => ⟨S32x1x1024x1024, .f32⟩
  | .hbm, ⟨5, _⟩ => ⟨S33554432, .i32⟩
  | .hbm, ⟨6, _⟩ => ⟨S33554432, .f32⟩
  | .hbm, ⟨7, _⟩ => ⟨S_, .f32⟩
  | .hbm, ⟨8, _⟩ => ⟨S21, .f32⟩
  | .hbm, ⟨9, _⟩ => ⟨S33554432x1, .i32⟩
  | .hbm, ⟨10, _⟩ => ⟨S21, .f32⟩
  | .hbm, ⟨11, _⟩ => ⟨S_, .f32⟩
  | .hbm, ⟨12, _⟩ => ⟨S33554432, .f32⟩
  | .hbm, ⟨13, _⟩ => ⟨S_, .f32⟩
  | .hbm, ⟨14, _⟩ => ⟨S21, .f32⟩
  | .hbm, ⟨15, _⟩ => ⟨S33554432x1, .i32⟩
  | .hbm, ⟨16, _⟩ => ⟨S21, .f32⟩
  | .hbm, ⟨17, _⟩ => ⟨S_, .f32⟩
  | .hbm, ⟨18, _⟩ => ⟨S21, .f32⟩
  | .hbm, ⟨19, _⟩ => ⟨S21, .f32⟩
  | .hbm, ⟨20, _⟩ => ⟨S21, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  shapeCasts_S32x1x1024x1024_S33554432 : S32x1x1024x1024.ShapeCasts S33554432
  bcast_S_S21 : S_.BroadcastsInDim S21 (![] : Fin 0 → Fin S21.rank)
  bcast_S33554432_S33554432x1_0 : S33554432.BroadcastsInDim S33554432x1 (![0] : Fin 1 → Fin S33554432x1.rank)
  bcast_S_S33554432 : S_.BroadcastsInDim S33554432 (![] : Fin 0 → Fin S33554432.rank)
  scatter_S21_S33554432x1_S33554432_n_0_0_1_wf : ScatterDims.WF S21 S33554432x1 S33554432 [] [0] [0] 1

variable [Facts₀]

def scatter_S21_S33554432x1_S33554432_n_0_0_1 : ScatterDims S21 S33554432x1 S33554432 where
  updateWindowDims := []
  insertedWindowDims := [0]
  scatterDimsToOperandDims := [0]
  indexVectorDim := 1
  wf := scatter_S21_S33554432x1_S33554432_n_0_0_1_wf

class Facts : Prop extends Facts₀ where

variable [Facts]
-- ==== Proof.KerPiece.lean ====
/-
  What each control case of the kernel body leaves behind, as values. A core's first point stores the zero block into
  the 32 × 2 accumulator and then adds the tile's contribution; every later point adds its tile's contribution to what
  the point before left; the core's last point moreover copies the first 21 rows of the two columns into the two
  output blocks.
-/
import proofs.«400465_j7000796692659_3_alg».proof.Proof.Gen.KernelIdeal.Frame
import Idealize.ShloMosaic.Lib.Pipeline.Value
import Idealize.ShloMosaic.Lib.Tactic

noncomputable section

namespace Cert.ClassSqErr.KerPiece

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point of a core (neither first nor last): the accumulator ends at its old contents plus the tile's. -/
theorem acc_B (c : Dev nD) (i : grid0.Coords) (a3 : Memref sig .tc .vmem S1x1x128x1024 .f32) (h3 : a3.IsWhole) (a4 : Memref sig .tc .vmem S1x1x128x1024 .i32) (h4 : a4.IsWhole) (a5 : Memref sig .tc .vmem S1x1x21 .f32) (h5 : a5.IsWhole) (a6 : Memref sig .tc .vmem S1x1x21 .f32) (h6 : a6.IsWhole) (a7 : Memref sig .tc .vmem S32x2 .f32) (h7 : a7.IsWhole) (hc0 : ¬cond0_0 i) (hc1 : ¬cond0_1 i)
    (x0 : Vec F S1x1x128x1024 .f32) (x1 : Vec F S1x1x128x1024 .i32) (xs0 : Vec F S32x2 .f32) :
    sout0_B_0 c i a3 h3 a4 h4 a5 h5 a6 h6 a7 h7 hc0 hc1 x0 x1 xs0 = k0_pay1 (k0_pay5 x0 x1 xs0) := by
  unfold sout0_B_0
  rw [View.read_writes_eq_canon _ _ _ (scover0_B_0 c i a3 h3 a4 h4 a5 h5 a6 h6 a7 h7 hc0 hc1 x0 x1 xs0)]
  unfold kernelRun0_B
  dsimp only
  sl_unfold_words
  rw [View.canon_unit_zero hz2]
  simp only [View.readAt_eq_ld, h3.read_unread, h4.read_unread, h7.read_unread,
    View.ld_unit_zero (S := S1x1x128x1024) hz4, View.ld_unit_zero (S := S32x2) hz2]

/-- A core's first point: the accumulator ends at the zero block plus the tile's contribution. -/
theorem acc_A (c : Dev nD) (i : grid0.Coords) (a3 : Memref sig .tc .vmem S1x1x128x1024 .f32) (h3 : a3.IsWhole) (a4 : Memref sig .tc .vmem S1x1x128x1024 .i32) (h4 : a4.IsWhole) (a5 : Memref sig .tc .vmem S1x1x21 .f32) (h5 : a5.IsWhole) (a6 : Memref sig .tc .vmem S1x1x21 .f32) (h6 : a6.IsWhole) (a7 : Memref sig .tc .vmem S32x2 .f32) (h7 : a7.IsWhole) (hc0 : cond0_0 i) (hc1 : ¬cond0_1 i)
    (x0 : Vec F S1x1x128x1024 .f32) (x1 : Vec F S1x1x128x1024 .i32) :
    sout0_A_0 c i a3 h3 a4 h4 a5 h5 a6 h6 a7 h7 hc0 hc1 x0 x1 = k0_pay1 (k0_pay5 x0 x1 k0_pay4) := by
  unfold sout0_A_0
  rw [View.read_writes_eq_canon _ _ _ (scover0_A_0 c i a3 h3 a4 h4 a5 h5 a6 h6 a7 h7 hc0 hc1 x0 x1)]
  unfold kernelRun0_A
  dsimp only
  sl_unfold_words
  rw [View.canon_cons_unit_zero (S := S32x2) hz2]
  simp only [View.readAt_eq_ld, h3.read_unread, h4.read_unread, View.ld_unit_zero (S := S1x1x128x1024) hz4,
    View.readCov_unit_zero (S := S32x2) _ hz2]

/-- A core's last point: the accumulator ends at its old contents plus the tile's. -/
theorem acc_C (c : Dev nD) (i : grid0.Coords) (a3 : Memref sig .tc .vmem S1x1x128x1024 .f32) (h3 : a3.IsWhole) (a4 : Memref sig .tc .vmem S1x1x128x1024 .i32) (h4 : a4.IsWhole) (a5 : Memref sig .tc .vmem S1x1x21 .f32) (h5 : a5.IsWhole) (a6 : Memref sig .tc .vmem S1x1x21 .f32) (h6 : a6.IsWhole) (a7 : Memref sig .tc .vmem S32x2 .f32) (h7 : a7.IsWhole) (hc0 : ¬cond0_0 i) (hc1 : cond0_1 i)
    (x0 : Vec F S1x1x128x1024 .f32) (x1 : Vec F S1x1x128x1024 .i32) (xs0 : Vec F S32x2 .f32) :
    sout0_C_0 c i a3 h3 a4 h4 a5 h5 a6 h6 a7 h7 hc0 hc1 x0 x1 xs0 = k0_pay1 (k0_pay5 x0 x1 xs0) := by
  unfold sout0_C_0
  rw [View.read_writes_eq_canon _ _ _ (scover0_C_0 c i a3 h3 a4 h4 a5 h5 a6 h6 a7 h7 hc0 hc1 x0 x1 xs0)]
  unfold kernelRun0_C
  dsimp only
  sl_unfold_words
  rw [View.canon_unit_zero hz2]
  simp only [View.readAt_eq_ld, h3.read_unread, h4.read_unread, h7.read_unread,
    View.ld_unit_zero (S := S1x1x128x1024) hz4, View.ld_unit_zero (S := S32x2) hz2]

/-- A core's last point: the squared-error output block is cut from the accumulator it has just updated. -/
theorem out2_C (c : Dev nD) (i : grid0.Coords) (a3 : Memref sig .tc .vmem S1x1x128x1024 .f32) (h3 : a3.IsWhole) (a4 : Memref sig .tc .vmem S1x1x128x1024 .i32) (h4 : a4.IsWhole) (a5 : Memref sig .tc .vmem S1x1x21 .f32) (h5 : a5.IsWhole) (a6 : Memref sig .tc .vmem S1x1x21 .f32) (h6 : a6.IsWhole) (a7 : Memref sig .tc .vmem S32x2 .f32) (h7 : a7.IsWhole) (hc0 : ¬cond0_0 i) (hc1 : cond0_1 i)
    (x0 : Vec F S1x1x128x1024 .f32) (x1 : Vec F S1x1x128x1024 .i32) (xs0 : Vec F S32x2 .f32) :
    out0_C_2 c i a3 h3 a4 h4 a5 h5 a6 h6 a7 h7 hc0 hc1 x0 x1 xs0 = k0_pay2 (k0_pay1 (k0_pay5 x0 x1 xs0)) := by
  unfold out0_C_2
  rw [View.read_writes_eq_canon _ _ _ (cover0_C_2 c i a3 h3 a4 h4 a5 h5 a6 h6 a7 h7 hc0 hc1 x0 x1 xs0)]
  unfold kernelRun0_C
  dsimp only
  sl_unfold_words
  rw [View.canon_unit_zero hz3]
  simp only [View.readAt_eq_ld, h3.read_unread, h4.read_unread, h7.read_unread,
    View.ld_unit_zero (S := S1x1x128x1024) hz4, View.ld_unit_zero (S := S32x2) hz2,
    View.readCov_unit_zero (S := S32x2) _ hz2]

/-- A core's last point: the count output block is cut from the accumulator it has just updated. -/
theorem out3_C (c : Dev nD) (i : grid0.Coords) (a3 : Memref sig .tc .vmem S1x1x128x1024 .f32) (h3 : a3.IsWhole) (a4 : Memref sig .tc .vmem S1x1x128x1024 .i32) (h4 : a4.IsWhole) (a5 : Memref sig .tc .vmem S1x1x21 .f32) (h5 : a5.IsWhole) (a6 : Memref sig .tc .vmem S1x1x21 .f32) (h6 : a6.IsWhole) (a7 : Memref sig .tc .vmem S32x2 .f32) (h7 : a7.IsWhole) (hc0 : ¬cond0_0 i) (hc1 : cond0_1 i)
    (x0 : Vec F S1x1x128x1024 .f32) (x1 : Vec F S1x1x128x1024 .i32) (xs0 : Vec F S32x2 .f32) :
    out0_C_3 c i a3 h3 a4 h4 a5 h5 a6 h6 a7 h7 hc0 hc1 x0 x1 xs0 = k0_pay3 (k0_pay1 (k0_pay5 x0 x1 xs0)) := by
  unfold out0_C_3
  rw [View.read_writes_eq_canon _ _ _ (cover0_C_3 c i a3 h3 a4 h4 a5 h5 a6 h6 a7 h7 hc0 hc1 x0 x1 xs0)]
  unfold kernelRun0_C
  dsimp only
  sl_unfold_words
  rw [View.canon_unit_zero hz3]
  simp only [View.readAt_eq_ld, h3.read_unread, h4.read_unread, h7.read_unread,
    View.ld_unit_zero (S := S1x1x128x1024) hz4, View.ld_unit_zero (S := S32x2) hz2,
    View.readCov_unit_zero (S := S32x2) _ hz2]

end Cert.ClassSqErr.KerPiece

end
-- ==== Proof.Spec.lean ====
/-
  Per-class squared error of a label image against a prediction image, as sums over the pixels.

  The pixel array has 32 images of 1024 × 1024 pixels (one channel). A pixel with label word `g` (read as a signed
  integer) and prediction `x` contributes `(g - x)²` to the squared-error sum of class `g` and `1` to its count;
  a label outside the classes contributes to none. The sums are over the extended reals, where addition is commutative
  and associative, so any grouping of the pixels gives the same totals: here the grouping into 256 tiles of
  128 rows, tile `t` being rows `128·(t mod 8) …` of image `t / 8`.
-/
import Idealize.ShloMosaic.PureOps.Ideal
import Idealize.ShloMosaic.Lib.ValueIdx

noncomputable section

open scoped BigOperators

namespace Cert.ClassSqErr

open Idealize.ShloMosaic Idealize.ShloMosaic.ValueIdx

/-- The pixel array: image, channel, row, column. -/
abbrev SPix : Shape := ⟨4, ![32, 1, 1024, 1024]⟩
/-- One tile: 128 rows of one image. -/
abbrev STile : Shape := ⟨4, ![1, 1, 128, 1024]⟩

/-- The squared deviation of a pixel's label from its prediction. -/
def dev2 (x : EReal) (g : BitVec 32) : EReal := (((g.toInt : ℝ) : EReal) - x) * (((g.toInt : ℝ) : EReal) - x)

/-- A pixel's contribution to class `k`'s squared-error sum: its squared deviation when its label is `k`. -/
def sqTerm (k : ℕ) (x : EReal) (g : BitVec 32) : EReal := if g.toInt = (k : ℤ) then dev2 x g else 0

/-- A pixel's contribution to class `k`'s count: one when its label is `k`. -/
def cntTerm (k : ℕ) (g : BitVec 32) : EReal := if g.toInt = (k : ℤ) then 1 else 0

/-- Class `k`'s squared-error sum over all pixels. -/
def classSq (x : SPix.Idx → EReal) (g : SPix.Idx → BitVec 32) (k : ℕ) : EReal := ∑ i : SPix.Idx, sqTerm k (x i) (g i)

/-- Class `k`'s pixel count. -/
def classCnt (g : SPix.Idx → BitVec 32) (k : ℕ) : EReal := ∑ i : SPix.Idx, cntTerm k (g i)

/-- Class `k`'s squared-error sum over one tile, rows then columns. -/
def tileSq (x : STile.Idx → EReal) (g : STile.Idx → BitVec 32) (k : ℕ) : EReal :=
  ∑ r : Fin 128, ∑ q : Fin 1024, sqTerm k (x (ix4 0 0 r q)) (g (ix4 0 0 r q))

/-- Class `k`'s pixel count over one tile. -/
def tileCnt (g : STile.Idx → BitVec 32) (k : ℕ) : EReal :=
  ∑ r : Fin 128, ∑ q : Fin 1024, cntTerm k (g (ix4 0 0 r q))

/-- The pixel that entry `y` of tile `t` is: image `t / 8`, row `128·(t mod 8) + y₂`, column `y₃`. -/
def tilePix (t : Fin 256) (y : STile.Idx) : SPix.Idx :=
  ix4 ⟨t.val / 8, by have := t.isLt; omega⟩ 0
    ⟨128 * (t.val % 8) + (y 2).val, by have h : (y 2).val < 128 := (y 2).isLt; omega⟩ (y 3)

/-- A sum that restarts at every multiple of 128: after step `n` it holds the terms from the last multiple of 128
    up to `n`. -/
def runAcc (f : ℕ → EReal) : ℕ → EReal
  | 0 => 0 + f 0
  | n + 1 => if (n + 1) % 128 = 0 then 0 + f (n + 1) else runAcc f n + f (n + 1)

end Cert.ClassSqErr

end
-- ==== Proof.KerPay.lean ====
/-
  The kernel body's arithmetic at an index. At one grid point the body adds to row `p` of its 32 × 2 accumulator the
  tile's squared-error sum (column 0) and pixel count (column 1) of class `p`: the label block, converted to a float,
  is compared for equality with the class number, the squared deviations (or ones) are kept where they match and zero
  elsewhere, and the result is summed over the columns and then over the rows. The other payloads are the zero block
  the first point of a core stores, and the first 21 rows of either column laid out as a 1 × 1 × 21 block.
-/
import proofs.«400465_j7000796692659_3_alg».proof.Proof.Spec
import proofs.«400465_j7000796692659_3_alg».proof.Proof.Gen.KernelIdeal.Skeleton
import Idealize.ShloMosaic.PureOps.Ideal.Laws
import Idealize.ShloMosaic.Lib.Pipeline.Value
import Idealize.ShloMosaic.Lib.ValueLayout

noncomputable section

open scoped BigOperators

namespace Cert.ClassSqErr.Ker

open Idealize.ShloMosaic Idealize.ShloMosaic.ValueIdx Cert.KernelIdeal Cert.KernelIdeal.Gen

/-! ## The two reductions: a double sum -/

/-- Over row `p` of the result, the index with coordinate `r` inserted on the reduced row axis is `(p, r)`. -/
private theorem lift1 (p : Fin 32) (r : Fin 128) :
    reduces_S32x128_S32.lift (ix1 p) r = ix2 p r := by
  funext c
  match c with
  | ⟨0, _⟩ => rfl
  | ⟨1, _⟩ => rfl

/-- Over `(p, r)`, the index with coordinate `q` inserted on the reduced column axis is `(p, r, q)`. -/
private theorem lift2 (p : Fin 32) (r : Fin 128) (q : Fin 1024) :
    reduces_S32x128x1024_S32x128.lift (ix2 p r) q = ix3 p r q := by
  funext c
  match c with
  | ⟨0, _⟩ => rfl
  | ⟨1, _⟩ => rfl
  | ⟨2, _⟩ => rfl

/-- Summing a 32 × 128 × 1024 block over its columns and then over its rows: the double sum, at each class. -/
private theorem reduce2 (w : S32x128x1024.Idx → EReal) (p : Fin 32) :
    multiReduction (F := Ideal) (φ := .f32) .add [1] S32
        (multiReduction (F := Ideal) (φ := .f32) .add [2] S32x128 w 0x00000000#32 reduces_S32x128x1024_S32x128 (.inl rfl) rfl)
        0x00000000#32 reduces_S32x128_S32 (.inl rfl) rfl (ix1 p)
      = ∑ r : Fin 128, ∑ q : Fin 1024, w (ix3 p r q) := by
  refine (Ideal.multiReduction_add_single (φ := .f32) _ _ reduces_S32x128_S32 (.inl rfl) rfl (ix1 p)).trans ?_
  refine Finset.sum_congr rfl fun r _ => ?_
  have e1 : reduces_S32x128_S32.lift (ix1 p) r = ix2 p r := lift1 p r
  rw [e1]
  refine (Ideal.multiReduction_add_single (φ := .f32) w _ reduces_S32x128x1024_S32x128 (.inl rfl) rfl (ix2 p r)).trans ?_
  refine Finset.sum_congr rfl fun q _ => ?_
  exact congrArg w (lift2 p r q)

/-! ## The layout operations of the body, read at an index -/

/-- A tile viewed as a 128 × 1024 plane reads `(r, q)` at `(0, 0, r, q)`. -/
private theorem tile_read {α : Type} (v : STile.Idx → α) (r : Fin 128) (q : Fin 1024) :
    shapeCast S128x1024 v shapeCasts_S1x1x128x1024_S128x1024 (ix2 r q) = v (ix4 0 0 r q) := by
  refine shapeCast_apply v _ (ix2 r q) (ix4 0 0 r q) ?_
  rw [Shape.rowMajor_val_four, Shape.rowMajor_val_two]
  show ((0 * 1 + 0) * 128 + r.val) * 1024 + q.val = r.val * 1024 + q.val
  omega

/-- A plane given a leading unit axis reads `(0, r, q)` at `(r, q)`. -/
private theorem plane_read {α : Type} (v : S128x1024.Idx → α) (r : Fin 128) (q : Fin 1024) :
    shapeCast S1x128x1024 v shapeCasts_S128x1024_S1x128x1024 (ix3 0 r q) = v (ix2 r q) := by
  refine shapeCast_apply v _ (ix3 0 r q) (ix2 r q) ?_
  rw [Shape.rowMajor_val_three, Shape.rowMajor_val_two]
  show r.val * 1024 + q.val = (0 * 128 + r.val) * 1024 + q.val
  omega

/-- The plane repeated over the 32 classes reads `(p, r, q)` at `(0, r, q)`. -/
private theorem bcast_plane {α : Type} (v : S1x128x1024.Idx → α) (p : Fin 32) (r : Fin 128) (q : Fin 1024) :
    broadcastTo S32x128x1024 v broadcasts_S1x128x1024_S32x128x1024 (ix3 p r q) = v (ix3 0 r q) := by
  refine broadcastTo_apply v _ (ix3 p r q) (ix3 0 r q) fun a => ?_
  match a with
  | ⟨0, _⟩ => show 0 = if (1 : Nat) = 1 then 0 else p.val; rw [if_pos rfl]
  | ⟨1, _⟩ => show r.val = if (128 : Nat) = 1 then 0 else r.val; rw [if_neg (by decide)]
  | ⟨2, _⟩ => show q.val = if (1024 : Nat) = 1 then 0 else q.val; rw [if_neg (by decide)]

/-- The column of class numbers repeated over the plane reads `(p, r, q)` at `(p, 0, 0)`. -/
private theorem bcast_col {α : Type} (v : S32x1x1.Idx → α) (p : Fin 32) (r : Fin 128) (q : Fin 1024) :
    broadcastTo S32x128x1024 v broadcasts_S32x1x1_S32x128x1024 (ix3 p r q) = v (ix3 p 0 0) := by
  refine broadcastTo_apply v _ (ix3 p r q) (ix3 p 0 0) fun a => ?_
  match a with
  | ⟨0, _⟩ => show p.val = if (32 : Nat) = 1 then 0 else p.val; rw [if_neg (by decide)]
  | ⟨1, _⟩ => show 0 = if (1 : Nat) = 1 then 0 else r.val; rw [if_pos rfl]
  | ⟨2, _⟩ => show 0 = if (1 : Nat) = 1 then 0 else q.val; rw [if_pos rfl]

/-- A class number below 32, as a 32-bit word read signed, is itself. -/
private theorem toInt_class (p : Fin 32) : (BitVec.ofNat 32 p.val).toInt = (p.val : ℤ) := by
  have hp := p.isLt
  rw [BitVec.toInt_eq_toNat_cond, BitVec.toNat_ofNat]
  omega

/-- Equality of two integers as extended reals, as a one-bit word. -/
private theorem cmp_oeq_int (a b : ℤ) :
    Ideal.cmp .oeq ((a : ℝ) : EReal) ((b : ℝ) : EReal) = if a = b then 1#1 else 0#1 := by
  unfold Ideal.cmp
  by_cases h : a = b
  · subst h; simp
  · have h' : ¬ (((a : ℝ) : EReal) = ((b : ℝ) : EReal)) := by
      rw [EReal.coe_eq_coe_iff, Int.cast_inj]; exact h
    simp [h, h']

/-! ## The match bits and the squared deviations at an index -/

/-- The match bits: at `(p, r, q)`, whether the label at `(r, q)`, as a float, equals the class number `p` as a float. -/
private def kMask (v7 : STile.Idx → BitVec 32) : IVec S32x128x1024 1 :=
  cmpf (F := Ideal) (φ := .bf16) .oeq
    (broadcastTo S32x128x1024
      (shapeCast S1x128x1024 (sitofp (F := Ideal) .bf16 (shapeCast S128x1024 v7 shapeCasts_S1x1x128x1024_S128x1024))
        shapeCasts_S128x1024_S1x128x1024)
      broadcasts_S1x128x1024_S32x128x1024)
    (broadcastTo S32x128x1024 (sitofp (F := Ideal) .bf16 (iota .tc S32x1x1 32 [0] iota_S32x1x1_d0_w32))
      broadcasts_S32x1x1_S32x128x1024)

/-- The squared deviations of the plane, repeated over the classes. -/
private def kDev (v5 : STile.Idx → EReal) (v7 : STile.Idx → BitVec 32) : FVec Ideal S32x128x1024 .f32 :=
  broadcastTo S32x128x1024
    (shapeCast S1x128x1024
      (shapeCast S1x128x1024
        (mulf (F := Ideal) (φ := .f32)
          (subf (F := Ideal) (φ := .f32) (sitofp (F := Ideal) .f32 (shapeCast S128x1024 v7 shapeCasts_S1x1x128x1024_S128x1024))
            (shapeCast S128x1024 v5 shapeCasts_S1x1x128x1024_S128x1024))
          (subf (F := Ideal) (φ := .f32) (sitofp (F := Ideal) .f32 (shapeCast S128x1024 v7 shapeCasts_S1x1x128x1024_S128x1024))
            (shapeCast S128x1024 v5 shapeCasts_S1x1x128x1024_S128x1024)))
        shapeCasts_S128x1024_S1x128x1024)
      shapeCasts_S1x128x1024_S1x128x1024)
    broadcasts_S1x128x1024_S32x128x1024

/-- The body's update, with its two summed blocks named. -/
private theorem pay5_eq (v5 : STile.Idx → EReal) (v7 : STile.Idx → BitVec 32) (v34 : S32x2.Idx → EReal) :
    k0_pay5 (F := Ideal) v5 v7 v34
      = addf (F := Ideal) (φ := .f32) v34
          (concatenate S32x2 1
            [⟨S32x1, shapeCast S32x1
                (multiReduction (F := Ideal) (φ := .f32) .add [1] S32
                  (multiReduction (F := Ideal) (φ := .f32) .add [2] S32x128
                    (select (kMask v7) (kDev v5 v7) (broadcast S32x128x1024 (Scalar.ofBits (F := Ideal) .f32 0x00000000#32)))
                    0x00000000#32 reduces_S32x128x1024_S32x128 (.inl rfl) rfl)
                  0x00000000#32 reduces_S32x128_S32 (.inl rfl) rfl)
                shapeCasts_S32_S32x1⟩,
             ⟨S32x1, shapeCast S32x1
                (multiReduction (F := Ideal) (φ := .f32) .add [1] S32
                  (multiReduction (F := Ideal) (φ := .f32) .add [2] S32x128
                    (select (kMask v7) (broadcast S32x128x1024 (Scalar.ofBits (F := Ideal) .f32 0x3F800000#32))
                      (broadcast S32x128x1024 (Scalar.ofBits (F := Ideal) .f32 0x00000000#32)))
                    0x00000000#32 reduces_S32x128x1024_S32x128 (.inl rfl) rfl)
                  0x00000000#32 reduces_S32x128_S32 (.inl rfl) rfl)
                shapeCasts_S32_S32x1⟩]
            concatenates_S32x1_S32x1_S32x2_d1) := rfl

/-- The match bit at `(p, r, q)` is `1` exactly when the label at `(r, q)`, read signed, is `p`. -/
private theorem kMask_apply (v7 : STile.Idx → BitVec 32) (p : Fin 32) (r : Fin 128) (q : Fin 1024) :
    kMask v7 (ix3 p r q) = if (v7 (ix4 0 0 r q)).toInt = (p.val : ℤ) then 1#1 else 0#1 := by
  unfold kMask
  rw [cmpf_apply, bcast_plane, plane_read, sitofp_apply, tile_read, bcast_col, sitofp_apply, iota_single_apply,
    Ideal.cmpf_def]
  show Ideal.cmp .oeq ((((v7 (ix4 0 0 r q)).toInt : ℤ) : ℝ) : EReal) ((((BitVec.ofNat 32 p.val).toInt : ℤ) : ℝ) : EReal) = _
  rw [toInt_class, cmp_oeq_int]

/-- The squared deviation at `(p, r, q)` is that of the pixel at `(r, q)`. -/
private theorem kDev_apply (v5 : STile.Idx → EReal) (v7 : STile.Idx → BitVec 32) (p : Fin 32) (r : Fin 128) (q : Fin 1024) :
    kDev v5 v7 (ix3 p r q) = dev2 (v5 (ix4 0 0 r q)) (v7 (ix4 0 0 r q)) := by
  unfold kDev
  rw [bcast_plane, shapeCast_self, plane_read, mulf_apply, subf_apply, sitofp_apply, tile_read, tile_read]
  rfl

/-! ## The accumulator's update -/

/-- The float constant one. -/
private theorem ofBits_one_f32 : Ideal.ofBits .f32 0x3F800000#32 = 1 := IdealRules.sign_bit.ideal_onePat .f32

/-- Keeping a value where the bit is set and zero elsewhere, on the bit of "the label is `p`". -/
private theorem select_label {α : Type} (g : BitVec 32) (p : ℕ) (a b : α) :
    Scalar.select (if g.toInt = (p : ℤ) then 1#1 else 0#1) a b = if g.toInt = (p : ℤ) then a else b := by
  by_cases h : g.toInt = (p : ℤ)
  · rw [if_pos h, if_pos h, select_one]
  · rw [if_neg h, if_neg h, select_zero]

/-- Column 0 of the accumulator's update: the tile's squared-error sum of class `p` is added. -/
theorem pay5_sq (v5 : STile.Idx → EReal) (v7 : STile.Idx → BitVec 32) (v34 : S32x2.Idx → EReal) (p : Fin 32) :
    k0_pay5 (F := Ideal) v5 v7 v34 (ix2 p 0) = v34 (ix2 p 0) + tileSq v5 v7 p.val := by
  rw [pay5_eq, addf_apply]
  refine congrArg (v34 (ix2 p 0) + ·) ?_
  refine (concatenate_pair_apply_left (t := S32x2) (s₁ := S32x1) (s₂ := S32x1) (1 : Fin 2) _ _
    concatenates_S32x1_S32x1_S32x2_d1 (ix2 p 0 : S32x2.Idx) rfl (ix2 p 0 : S32x1.Idx)
    (fun b => match b with | ⟨0, _⟩ => rfl | ⟨1, _⟩ => rfl)).trans ?_
  refine (shapeCast_apply _ shapeCasts_S32_S32x1 (ix2 p 0) (ix1 p) ?_).trans ?_
  · rw [Shape.rowMajor_val_one, Shape.rowMajor_val_two]
    show p.val = p.val * 1 + 0
    omega
  rw [reduce2]
  unfold tileSq
  refine Finset.sum_congr rfl fun r _ => Finset.sum_congr rfl fun q _ => ?_
  rw [select_apply, kMask_apply, kDev_apply, broadcast_apply, select_label]
  show (if (v7 (ix4 0 0 r q)).toInt = (p.val : ℤ) then dev2 (v5 (ix4 0 0 r q)) (v7 (ix4 0 0 r q)) else Ideal.ofBits .f32 0x00000000#32) = _
  rw [Ideal.ofBits_zero_f32]
  rfl

/-- Column 1 of the accumulator's update: the tile's pixel count of class `p` is added. -/
theorem pay5_cnt (v5 : STile.Idx → EReal) (v7 : STile.Idx → BitVec 32) (v34 : S32x2.Idx → EReal) (p : Fin 32) :
    k0_pay5 (F := Ideal) v5 v7 v34 (ix2 p 1) = v34 (ix2 p 1) + tileCnt v7 p.val := by
  rw [pay5_eq, addf_apply]
  refine congrArg (v34 (ix2 p 1) + ·) ?_
  refine (concatenate_pair_apply_right (t := S32x2) (s₁ := S32x1) (s₂ := S32x1) (1 : Fin 2) _ _
    concatenates_S32x1_S32x1_S32x2_d1 (ix2 p 1 : S32x2.Idx) rfl rfl (ix2 p 0 : S32x1.Idx)
    ?_ ?_).trans ?_
  · intro b hb
    match b with
    | ⟨0, _⟩ => rfl
    | ⟨1, _⟩ => exact absurd rfl hb
  · rfl
  refine (shapeCast_apply _ shapeCasts_S32_S32x1 (ix2 p 0) (ix1 p) ?_).trans ?_
  · rw [Shape.rowMajor_val_one, Shape.rowMajor_val_two]
    show p.val = p.val * 1 + 0
    omega
  rw [reduce2]
  unfold tileCnt
  refine Finset.sum_congr rfl fun r _ => Finset.sum_congr rfl fun q _ => ?_
  rw [select_apply, kMask_apply, broadcast_apply, broadcast_apply, select_label]
  show (if (v7 (ix4 0 0 r q)).toInt = (p.val : ℤ) then Ideal.ofBits .f32 0x3F800000#32 else Ideal.ofBits .f32 0x00000000#32) = _
  rw [Ideal.ofBits_zero_f32, ofBits_one_f32]
  rfl

/-! ## The other payloads -/

/-- The block a core's first point stores is zero everywhere. -/
theorem pay4_apply (j : S32x2.Idx) : k0_pay4 (F := Ideal) j = 0 := by
  unfold k0_pay4
  rw [shapeCast_self]
  show Ideal.ofBits .f32 0x00000000#32 = 0
  exact Ideal.ofBits_zero_f32

/-- Storing the updated accumulator changes no layout. -/
theorem pay1_eq {F : FTy → Type} [FloatOps F] (v : FVec F S32x2 .f32) : k0_pay1 v = v := by
  unfold k0_pay1
  exact shapeCast_self v _

/-- The squared-error output block: class `k`'s entry is row `k`, column 0 of the accumulator. -/
theorem pay2_apply (v44 : S32x2.Idx → EReal) (k : Fin 21) :
    k0_pay2 (F := Ideal) v44 (ix3 0 0 k) = v44 (ix2 ⟨k.val, by have := k.isLt; omega⟩ 0) := by
  unfold k0_pay2
  refine (shapeCast_apply _ shapeCasts_S21_S1x1x21 (ix3 0 0 k) (ix1 k) ?_).trans ?_
  · rw [Shape.rowMajor_val_one, Shape.rowMajor_val_three]
    show k.val = (0 * 1 + 0) * 21 + k.val
    omega
  refine (shapeCast_apply _ shapeCasts_S21x1_S21 (ix1 k) (ix2 k 0) ?_).trans ?_
  · rw [Shape.rowMajor_val_one, Shape.rowMajor_val_two]
    show k.val * 1 + 0 = k.val
    omega
  refine extractStridedSlice_apply _ v44 slices_S32x2_o0_0_S21x1 (ix2 k 0) _ ?_
  intro a
  match a with
  | ⟨0, _⟩ => show k.val = 0 + k.val; omega
  | ⟨1, _⟩ => show 0 = 0 + 0; rfl

/-- The count output block: class `k`'s entry is row `k`, column 1 of the accumulator. -/
theorem pay3_apply (v44 : S32x2.Idx → EReal) (k : Fin 21) :
    k0_pay3 (F := Ideal) v44 (ix3 0 0 k) = v44 (ix2 ⟨k.val, by have := k.isLt; omega⟩ 1) := by
  unfold k0_pay3
  refine (shapeCast_apply _ shapeCasts_S21_S1x1x21 (ix3 0 0 k) (ix1 k) ?_).trans ?_
  · rw [Shape.rowMajor_val_one, Shape.rowMajor_val_three]
    show k.val = (0 * 1 + 0) * 21 + k.val
    omega
  refine (shapeCast_apply _ shapeCasts_S21x1_S21 (ix1 k) (ix2 k 0) ?_).trans ?_
  · rw [Shape.rowMajor_val_one, Shape.rowMajor_val_two]
    show k.val * 1 + 0 = k.val
    omega
  refine extractStridedSlice_apply _ v44 slices_S32x2_o0_1_S21x1 (ix2 k 0) _ ?_
  intro a
  match a with
  | ⟨0, _⟩ => show k.val = 0 + k.val; omega
  | ⟨1, _⟩ => show 1 = 1 + 0; rfl

end Cert.ClassSqErr.Ker

end
-- ==== Proof.Tiles.lean ====
/-
  Regrouping the pixel sums. The 32 × 1024 × 1024 pixels are the disjoint union of 256 tiles of 128 × 1024, so a sum
  over all pixels is the sum over the tiles of the tile sums; and a running sum that restarts at every multiple of
  128, read at steps 127 and 255, gives the two halves of the sum over 256 steps.
-/
import proofs.«400465_j7000796692659_3_alg».proof.Proof.Spec

noncomputable section

open scoped BigOperators

namespace Cert.ClassSqErr

open Idealize.ShloMosaic Idealize.ShloMosaic.ValueIdx

/-- The image coordinate of a pixel is below 32. -/
private theorem pix_lt0 (i : SPix.Idx) : (i 0).val < 32 := (i 0).isLt
/-- The channel coordinate of a pixel is below 1. -/
private theorem pix_lt1 (i : SPix.Idx) : (i 1).val < 1 := (i 1).isLt
/-- The row coordinate of a pixel is below 1024. -/
private theorem pix_lt2 (i : SPix.Idx) : (i 2).val < 1024 := (i 2).isLt

/-- Tile, row within the tile and column name each pixel exactly once: pixel `i` lies in tile
    `8·i₀ + i₂ / 128`, on its row `i₂ mod 128`, in column `i₃`. -/
private def tileEquiv : Fin 256 × Fin 128 × Fin 1024 ≃ SPix.Idx where
  toFun p := tilePix p.1 (ix4 0 0 p.2.1 p.2.2)
  invFun i :=
    (⟨8 * (i 0).val + (i 2).val / 128, by have := pix_lt0 i; have := pix_lt2 i; omega⟩,
      ⟨(i 2).val % 128, Nat.mod_lt _ (by norm_num)⟩, i 3)
  left_inv := by
    rintro ⟨t, r, q⟩
    have ht := t.isLt
    have hr := r.isLt
    refine Prod.ext (Fin.ext ?_) (Prod.ext (Fin.ext ?_) ?_)
    · show 8 * (t.val / 8) + (128 * (t.val % 8) + r.val) / 128 = t.val
      omega
    · show (128 * (t.val % 8) + r.val) % 128 = r.val
      omega
    · rfl
  right_inv := by
    intro i
    have h0 := pix_lt0 i
    have h1 := pix_lt1 i
    have h2 := pix_lt2 i
    funext a
    match a with
    | ⟨0, _⟩ =>
      refine Fin.ext ?_
      show (8 * (i 0).val + (i 2).val / 128) / 8 = (i 0).val
      omega
    | ⟨1, _⟩ =>
      refine Fin.ext ?_
      show 0 = (i 1).val
      omega
    | ⟨2, _⟩ =>
      refine Fin.ext ?_
      show 128 * ((8 * (i 0).val + (i 2).val / 128) % 8) + (i 2).val % 128 = (i 2).val
      omega
    | ⟨3, _⟩ => rfl

/-- A sum over all pixels, tile by tile, each tile row by row. -/
theorem sum_pix_eq_sum_tiles {M : Type} [AddCommMonoid M] (f : SPix.Idx → M) :
    ∑ i : SPix.Idx, f i = ∑ t : Fin 256, ∑ r : Fin 128, ∑ q : Fin 1024, f (tilePix t (ix4 0 0 r q)) := by
  rw [← Equiv.sum_comp tileEquiv f, Fintype.sum_prod_type]
  refine Finset.sum_congr rfl fun t _ => ?_
  rw [Fintype.sum_prod_type]
  rfl

/-- Class `k`'s squared-error sum is the sum of its tile sums. -/
theorem classSq_eq_sum_tiles (x : SPix.Idx → EReal) (g : SPix.Idx → BitVec 32) (k : ℕ) :
    classSq x g k = ∑ t : Fin 256, tileSq (fun y => x (tilePix t y)) (fun y => g (tilePix t y)) k := by
  unfold classSq tileSq
  exact sum_pix_eq_sum_tiles (fun i => sqTerm k (x i) (g i))

/-- Class `k`'s count is the sum of its tile counts. -/
theorem classCnt_eq_sum_tiles (g : SPix.Idx → BitVec 32) (k : ℕ) :
    classCnt g k = ∑ t : Fin 256, tileCnt (fun y => g (tilePix t y)) k := by
  unfold classCnt tileCnt
  exact sum_pix_eq_sum_tiles (fun i => cntTerm k (g i))

/-- The restarting sum starts from its first term. -/
private theorem runAcc_zero (f : ℕ → EReal) : runAcc f 0 = f 0 := by
  rw [runAcc, zero_add]

/-- At a multiple of 128 the restarting sum is that step's term alone. -/
private theorem runAcc_restart (f : ℕ → EReal) (n : ℕ) (h : (n + 1) % 128 = 0) :
    runAcc f (n + 1) = f (n + 1) := by
  rw [runAcc, if_pos h, zero_add]

/-- Away from the multiples of 128 the restarting sum gains that step's term. -/
private theorem runAcc_step (f : ℕ → EReal) (n : ℕ) (h : ¬ (n + 1) % 128 = 0) :
    runAcc f (n + 1) = runAcc f n + f (n + 1) := by
  rw [runAcc, if_neg h]

/-- Inside a block of 128 steps the restarting sum is the sum of the block's terms so far. -/
theorem runAcc_block (f : ℕ → EReal) (b r : ℕ) (hr : r < 128) :
    runAcc f (128 * b + r) = ∑ s ∈ Finset.range (r + 1), f (128 * b + s) := by
  induction r with
  | zero =>
    rw [Nat.zero_add, Finset.sum_range_one, Nat.add_zero]
    cases b with
    | zero => exact runAcc_zero f
    | succ c =>
      have e : 128 * (c + 1) = (128 * c + 127) + 1 := by omega
      rw [e]
      exact runAcc_restart f (128 * c + 127) (by omega)
  | succ n ih =>
    have e : 128 * b + (n + 1) = (128 * b + n) + 1 := by omega
    rw [Finset.sum_range_succ, ← ih (by omega), e]
    exact runAcc_step f (128 * b + n) (by omega)

/-- The two block totals add up to the sum over all 256 steps. -/
theorem runAcc_halves (f : ℕ → EReal) : runAcc f 127 + runAcc f 255 = ∑ t : Fin 256, f t.val := by
  have h0 : runAcc f 127 = ∑ s ∈ Finset.range 128, f s := by
    have h := runAcc_block f 0 127 (by norm_num)
    simp only [Nat.mul_zero, Nat.zero_add] at h
    exact h
  have h1 : runAcc f 255 = ∑ s ∈ Finset.range 128, f (128 + s) := by
    have h := runAcc_block f 1 127 (by norm_num)
    simp only [Nat.mul_one] at h
    exact h
  rw [h0, h1, Fin.sum_univ_eq_sum_range (fun t => f t) 256]
  exact (Finset.sum_range_add f 128 128).symm

end Cert.ClassSqErr

end
-- ==== Proof.KerAcc.lean ====
/-
  The accumulator over the grid. Point `n` of the grid handles tile `n`; a core's first point (`n` a multiple of
  128) starts from the zero block, every other point from what the point before left, and each adds to row `p`,
  column 0 the tile's squared-error sum of class `p` and to column 1 its pixel count. So after point `n` the
  accumulator holds the restarting sums of the tiles' contributions, and the two output blocks a core's last point
  stores are their first 21 rows.
-/
import proofs.«400465_j7000796692659_3_alg».proof.Proof.KerPiece
import proofs.«400465_j7000796692659_3_alg».proof.Proof.KerPay
import proofs.«400465_j7000796692659_3_alg».proof.Proof.Tiles

noncomputable section

namespace Cert.ClassSqErr.KerAcc

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The prediction block and the label block the body reads at a point. -/
abbrev xblk (c : Dev nD) (t : Fin cfg0.N) : Vec Ideal S1x1x128x1024 .f32 := iblk m c 0 t
abbrev gblk (c : Dev nD) (t : Fin cfg0.N) : Vec Ideal S1x1x128x1024 .i32 := iblk m c 1 t

/-- Point `n`'s contribution to class `p`: its tile's squared-error sum, and its tile's count. -/
def sqAt (c : Dev nD) (p : ℕ) (n : ℕ) : EReal :=
  if h : n < cfg0.N then tileSq (xblk m c ⟨n, h⟩) (gblk m c ⟨n, h⟩) p else 0
def cntAt (c : Dev nD) (p : ℕ) (n : ℕ) : EReal :=
  if h : n < cfg0.N then tileCnt (gblk m c ⟨n, h⟩) p else 0

/-- A core's first point leaves the zero block updated by its tile. -/
theorem step_A (c : Dev nD) (t : Fin cfg0.N) (h0 : t.val % 128 = 0) (h1 : ¬t.val % 128 = 127) :
    (outsAt0 m c t.val t.isLt).2.2 = k0_pay5 (xblk m c t) (gblk m c t) (k0_pay4 (F := Ideal)) := by
  rw [outsAt0_A m c t h0 h1]; dsimp only; rw [KerPiece.acc_A, Ker.pay1_eq]

/-- A middle point leaves what the point before left, updated by its tile. -/
theorem step_B (c : Dev nD) (t : Fin cfg0.N) (h0 : ¬t.val % 128 = 0) (h1 : ¬t.val % 128 = 127) :
    (outsAt0 m c t.val t.isLt).2.2
      = k0_pay5 (xblk m c t) (gblk m c t) (outsAt0 m c (t.val - 1) (Nat.lt_of_le_of_lt (Nat.sub_le _ _) t.isLt)).2.2 := by
  rw [outsAt0_B m c t h0 h1]; dsimp only; rw [KerPiece.acc_B, Ker.pay1_eq]

/-- A core's last point likewise. -/
theorem step_C (c : Dev nD) (t : Fin cfg0.N) (h0 : ¬t.val % 128 = 0) (h1 : t.val % 128 = 127) :
    (outsAt0 m c t.val t.isLt).2.2
      = k0_pay5 (xblk m c t) (gblk m c t) (outsAt0 m c (t.val - 1) (Nat.lt_of_le_of_lt (Nat.sub_le _ _) t.isLt)).2.2 := by
  rw [outsAt0_C m c t h0 h1]; dsimp only; rw [KerPiece.acc_C, Ker.pay1_eq]

/-- Any point but a core's first: the accumulator is the previous one updated by the tile. -/
theorem step_succ (c : Dev nD) (n : ℕ) (h : n + 1 < cfg0.N) (h0 : ¬(n + 1) % 128 = 0) :
    (outsAt0 m c (n + 1) h).2.2
      = k0_pay5 (xblk m c ⟨n + 1, h⟩) (gblk m c ⟨n + 1, h⟩) (outsAt0 m c n (Nat.lt_of_succ_lt h)).2.2 := by
  by_cases h1 : (n + 1) % 128 = 127
  · exact step_C m c ⟨n + 1, h⟩ h0 h1
  · exact step_B m c ⟨n + 1, h⟩ h0 h1

/-- Column 0 of the accumulator after point `n`: the restarting sum of the tiles' squared-error sums. -/
theorem acc_sq (c : Dev nD) (p : Fin 32) : ∀ (n : ℕ) (h : n < cfg0.N),
    (outsAt0 m c n h).2.2 (ix2 p 0) = runAcc (sqAt m c p.val) n
  | 0, h => by
    refine (congrFun (step_A m c ⟨0, h⟩ (Nat.zero_mod _) (by show ¬(0 % 128 = 127); omega)) (ix2 p 0)).trans ?_
    refine (Ker.pay5_sq (xblk m c ⟨0, h⟩) (gblk m c ⟨0, h⟩) (k0_pay4 (F := Ideal)) p).trans ?_
    rw [Ker.pay4_apply]
    show _ = 0 + sqAt m c p.val 0
    rw [sqAt, dif_pos h]
  | n + 1, h => by
    show _ = (if (n + 1) % 128 = 0 then 0 + sqAt m c p.val (n + 1) else runAcc (sqAt m c p.val) n + sqAt m c p.val (n + 1))
    by_cases h0 : (n + 1) % 128 = 0
    · have h1 : ¬(n + 1) % 128 = 127 := by omega
      refine (congrFun (step_A m c ⟨n + 1, h⟩ h0 h1) (ix2 p 0)).trans ?_
      refine (Ker.pay5_sq (xblk m c ⟨n + 1, h⟩) (gblk m c ⟨n + 1, h⟩) (k0_pay4 (F := Ideal)) p).trans ?_
      rw [Ker.pay4_apply, if_pos h0, sqAt, dif_pos h]
    · refine (congrFun (step_succ m c n h h0) (ix2 p 0)).trans ?_
      refine (Ker.pay5_sq (xblk m c ⟨n + 1, h⟩) (gblk m c ⟨n + 1, h⟩) _ p).trans ?_
      rw [acc_sq c p n (Nat.lt_of_succ_lt h), if_neg h0, sqAt, dif_pos h]

/-- Column 1 of the accumulator after point `n`: the restarting sum of the tiles' counts. -/
theorem acc_cnt (c : Dev nD) (p : Fin 32) : ∀ (n : ℕ) (h : n < cfg0.N),
    (outsAt0 m c n h).2.2 (ix2 p 1) = runAcc (cntAt m c p.val) n
  | 0, h => by
    refine (congrFun (step_A m c ⟨0, h⟩ (Nat.zero_mod _) (by show ¬(0 % 128 = 127); omega)) (ix2 p 1)).trans ?_
    refine (Ker.pay5_cnt (xblk m c ⟨0, h⟩) (gblk m c ⟨0, h⟩) (k0_pay4 (F := Ideal)) p).trans ?_
    rw [Ker.pay4_apply]
    show _ = 0 + cntAt m c p.val 0
    rw [cntAt, dif_pos h]
  | n + 1, h => by
    show _ = (if (n + 1) % 128 = 0 then 0 + cntAt m c p.val (n + 1) else runAcc (cntAt m c p.val) n + cntAt m c p.val (n + 1))
    by_cases h0 : (n + 1) % 128 = 0
    · have h1 : ¬(n + 1) % 128 = 127 := by omega
      refine (congrFun (step_A m c ⟨n + 1, h⟩ h0 h1) (ix2 p 1)).trans ?_
      refine (Ker.pay5_cnt (xblk m c ⟨n + 1, h⟩) (gblk m c ⟨n + 1, h⟩) (k0_pay4 (F := Ideal)) p).trans ?_
      rw [Ker.pay4_apply, if_pos h0, cntAt, dif_pos h]
    · refine (congrFun (step_succ m c n h h0) (ix2 p 1)).trans ?_
      refine (Ker.pay5_cnt (xblk m c ⟨n + 1, h⟩) (gblk m c ⟨n + 1, h⟩) _ p).trans ?_
      rw [acc_cnt c p n (Nat.lt_of_succ_lt h), if_neg h0, cntAt, dif_pos h]

/-- At a core's last point the two output blocks are cut from the accumulator the point leaves. -/
theorem out2_eq (c : Dev nD) (t : Fin cfg0.N) (h1 : t.val % 128 = 127) :
    (outsAt0 m c t.val t.isLt).1 = k0_pay2 (outsAt0 m c t.val t.isLt).2.2 := by
  have h0 : ¬t.val % 128 = 0 := by omega
  rw [outsAt0_C m c t h0 h1]; dsimp only; rw [KerPiece.out2_C, KerPiece.acc_C]

theorem out3_eq (c : Dev nD) (t : Fin cfg0.N) (h1 : t.val % 128 = 127) :
    (outsAt0 m c t.val t.isLt).2.1 = k0_pay3 (outsAt0 m c t.val t.isLt).2.2 := by
  have h0 : ¬t.val % 128 = 0 := by omega
  rw [outsAt0_C m c t h0 h1]; dsimp only; rw [KerPiece.out3_C, KerPiece.acc_C]

/-- So entry `k` of the squared-error block stored at a core's last point is class `k`'s restarting sum there, -/
theorem out2_apply (c : Dev nD) (t : Fin cfg0.N) (h1 : t.val % 128 = 127) (k : Fin 21) :
    (outsAt0 m c t.val t.isLt).1 (ix3 0 0 k) = runAcc (sqAt m c k.val) t.val := by
  rw [out2_eq m c t h1]
  refine (Ker.pay2_apply _ k).trans ?_
  exact acc_sq m c ⟨k.val, by have := k.isLt; omega⟩ t.val t.isLt

/-- and entry `k` of the count block is class `k`'s restarting count. -/
theorem out3_apply (c : Dev nD) (t : Fin cfg0.N) (h1 : t.val % 128 = 127) (k : Fin 21) :
    (outsAt0 m c t.val t.isLt).2.1 (ix3 0 0 k) = runAcc (cntAt m c k.val) t.val := by
  rw [out3_eq m c t h1]
  refine (Ker.pay3_apply _ k).trans ?_
  exact acc_cnt m c ⟨k.val, by have := k.isLt; omega⟩ t.val t.isLt

end Cert.ClassSqErr.KerAcc

end
-- ==== Proof.KerFinal.lean ====
/-
  The two output arrays after the run. Only a core's last point (points 127 and 255) writes its output blocks back:
  block `(core, 0, 0)` of each 2 × 1 × 21 array. So row `core` of the squared-error array ends at the core's total
  per class — the restarting sum read at point `128·core + 127` — and likewise the count array; the two rows cover
  the arrays.
-/
import proofs.«400465_j7000796692659_3_alg».proof.Proof.KerAcc

noncomputable section

namespace Cert.ClassSqErr.KerFinal

open Idealize.ShloMosaic Idealize.ShloMosaic.TcCoe Idealize.SL.Sem Idealize.ShloMosaic.ValueIdx
open Idealize.ShloMosaic.Pipeline (Dat)
open Cert.KernelIdeal Cert.KernelIdeal.Gen Cert.ClassSqErr.KerAcc

variable (m : (ℓ : Loc nD τ sig) → Buf (Elt Ideal) ℓ)

/-- The output windows' index maps, decided over the grid: point `t` addresses block `(t / 128, 0, 0)`. -/
theorem out_idx : ∀ t : Fin cfg0.N,
    win0_2.index t (0 : Fin 3) = t.val / 128 ∧ win0_2.index t (1 : Fin 3) = 0 ∧ win0_2.index t (2 : Fin 3) = 0
    ∧ win0_3.index t (0 : Fin 3) = t.val / 128 ∧ win0_3.index t (1 : Fin 3) = 0 ∧ win0_3.index t (2 : Fin 3) = 0 :=
  (by decide +kernel : ∀ t : Fin grid0.N, _)

/-- The squared-error array after the run: row `core`, class `k` holds the core's total. -/
def sqOut (c : Dev nD) : S2x1x21.Idx → EReal :=
  fun i => runAcc (sqAt m c (i 2).val) (128 * (i 0).val + 127)

/-- The count array after the run. -/
def cntOut (c : Dev nD) : S2x1x21.Idx → EReal :=
  fun i => runAcc (cntAt m c (i 2).val) (128 * (i 0).val + 127)

/-- Entry `y` of the block a core's last point stores: class `y₂`'s restarting sum at that point. -/
theorem out2_at (c : Dev nD) (t : Fin cfg0.N) (h1 : t.val % 128 = 127) (y : S1x1x21.Idx) :
    (outsAt0 m c t.val t.isLt).1 y = runAcc (sqAt m c (y 2).val) t.val := by
  obtain ⟨k, rfl⟩ : ∃ k : Fin 21, y = ix3 0 0 k := by
    refine ⟨y 2, funext fun a => ?_⟩
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact out2_apply m c t h1 k

theorem out3_at (c : Dev nD) (t : Fin cfg0.N) (h1 : t.val % 128 = 127) (y : S1x1x21.Idx) :
    (outsAt0 m c t.val t.isLt).2.1 y = runAcc (cntAt m c (y 2).val) t.val := by
  obtain ⟨k, rfl⟩ : ∃ k : Fin 21, y = ix3 0 0 k := by
    refine ⟨y 2, funext fun a => ?_⟩
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact out3_apply m c t h1 k

/-- What a writing point writes back is its block of the squared-error array. -/
theorem flushed2_eq (c : Dev nD) (t : Fin cfg0.N) (hf : (cfg0.win 2).flush t = true) :
    (dats m 0 c).flushed 2 t = ((cfg0.win 2).blk t).view.read (Elt Ideal) (sqOut m c) := by
  have h1 : t.val % 128 = 127 := (flush0_2 t).mp hf
  obtain ⟨e0, e1, e2, -, -, -⟩ := out_idx t
  show (cfg0.win 2).cut (grid0.coords t) ((dats m 0 c).after 2 t) = _
  rw [after0_2]
  funext y
  show (outsAt0 m c t.val t.isLt).1 y = sqOut m c (((cfg0.win 2).blk t).view.emb y)
  refine (out2_at m c t h1 y).trans ?_
  have q0 : ((((cfg0.win 2).blk t).view.emb y) 0).val = t.val / 128 := by
    show win0_2.index t (0 : Fin 3) * 1 + 1 * (y 0).val = t.val / 128
    have hy : (y 0).val < 1 := (y 0).isLt
    omega
  have q2 : ((((cfg0.win 2).blk t).view.emb y) 2).val = (y 2).val := by
    show win0_2.index t (2 : Fin 3) * 21 + 1 * (y 2).val = (y 2).val
    omega
  show _ = runAcc (sqAt m c ((((cfg0.win 2).blk t).view.emb y) 2).val) (128 * ((((cfg0.win 2).blk t).view.emb y) 0).val + 127)
  rw [q0, q2]
  congr 1
  omega

theorem flushed3_eq (c : Dev nD) (t : Fin cfg0.N) (hf : (cfg0.win 3).flush t = true) :
    (dats m 0 c).flushed 3 t = ((cfg0.win 3).blk t).view.read (Elt Ideal) (cntOut m c) := by
  have h1 : t.val % 128 = 127 := (flush0_3 t).mp hf
  obtain ⟨-, -, -, e0, e1, e2⟩ := out_idx t
  show (cfg0.win 3).cut (grid0.coords t) ((dats m 0 c).after 3 t) = _
  rw [after0_3]
  funext y
  show (outsAt0 m c t.val t.isLt).2.1 y = cntOut m c (((cfg0.win 3).blk t).view.emb y)
  refine (out3_at m c t h1 y).trans ?_
  have q0 : ((((cfg0.win 3).blk t).view.emb y) 0).val = t.val / 128 := by
    show win0_3.index t (0 : Fin 3) * 1 + 1 * (y 0).val = t.val / 128
    have hy : (y 0).val < 1 := (y 0).isLt
    omega
  have q2 : ((((cfg0.win 3).blk t).view.emb y) 2).val = (y 2).val := by
    show win0_3.index t (2 : Fin 3) * 21 + 1 * (y 2).val = (y 2).val
    omega
  show _ = runAcc (cntAt m c ((((cfg0.win 3).blk t).view.emb y) 2).val) (128 * ((((cfg0.win 3).blk t).view.emb y) 0).val + 127)
  rw [q0, q2]
  congr 1
  omega

/-- Every entry of the squared-error array is in the block its core's last point writes back. -/
theorem cover2 (c : Dev nD) (i : S2x1x21.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 21 := (i 2).isLt
  have hN : cfg0.N = 256 := N_0
  obtain ⟨t, ht⟩ : ∃ t : Fin cfg0.N, t.val = 128 * (i 0).val + 127 := ⟨⟨128 * (i 0).val + 127, by omega⟩, rfl⟩
  obtain ⟨e0, e1, e2, -, -, -⟩ := out_idx t
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 21 ≤ (i 2).val ∧ (i 2).val < win0_2.index t (2 : Fin 3) * 21 + 21
    omega

theorem cover3 (c : Dev nD) (i : S2x1x21.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 21 := (i 2).isLt
  have hN : cfg0.N = 256 := N_0
  obtain ⟨t, ht⟩ : ∃ t : Fin cfg0.N, t.val = 128 * (i 0).val + 127 := ⟨⟨128 * (i 0).val + 127, by omega⟩, rfl⟩
  obtain ⟨-, -, -, e0, e1, e2⟩ := out_idx t
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 21 ≤ (i 2).val ∧ (i 2).val < win0_3.index t (2 : Fin 3) * 21 + 21
    omega

/-- The squared-error array after the run. -/
theorem final2 (c : Dev nD) : (dats m 0 c).arrAt 2 cfg0.N = sqOut m c :=
  (dats m 0 c).arrAt_eq_of_cover 2 (sqOut m c) (flushed2_eq m c) (cover2 c)

/-- The count array after the run. -/
theorem final3 (c : Dev nD) : (dats m 0 c).arrAt 3 cfg0.N = cntOut m c :=
  (dats m 0 c).arrAt_eq_of_cover 3 (cntOut m c) (flushed3_eq m c) (cover3 c)

end Cert.ClassSqErr.KerFinal

end
-- ==== Proof.Tail.lean ====
/-
  The last step both programs share: each class's squared-error total divided by its count, the count first raised to
  at least the smoothing constant (the f32 nearest 1e-5).
-/
import Idealize.ShloMosaic.PureOps.Ideal

noncomputable section

namespace Cert.ClassSqErr

open Idealize.ShloMosaic

/-- The class vector, and the scalar shape. -/
abbrev SCls : Shape := ⟨1, ![21]⟩
abbrev SSc : Shape := ⟨0, ![]⟩

theorem bcast_SSc_SCls : SSc.BroadcastsInDim SCls (![] : Fin 0 → Fin SCls.rank) := by decide

/-- Per class: the squared-error total over the count raised to at least the smoothing constant. -/
def ratio (sq cnt : SCls.Idx → EReal) : SCls.Idx → EReal :=
  Host.divf (F := Ideal) (φ := .f32) sq
    (maximumf (F := Ideal) (φ := .f32) cnt
      (broadcastInDim SCls ![] bcast_SSc_SCls (constant (F := Ideal) SSc .f32 0x3727C5AC#32)))

end Cert.ClassSqErr

end
-- ==== Proof.KerRun.lean ====
/-
  The kernel's result. After the region the host adds the two cores' rows of each output array per class and divides
  the squared-error totals by the counts raised to at least the smoothing constant. The two rows of an array are the
  block totals of the restarting sum at points 127 and 255, which together are the sum over all 256 tiles; a tile's
  blocks are the tile's pixels of the two argument arrays; so the per-class sums are those over the whole pixel
  array.
-/
import proofs.«400465_j7000796692659_3_alg».proof.Proof.KerFinal
import proofs.«400465_j7000796692659_3_alg».proof.Proof.Tail
import Idealize.ShloMosaic.Lib.StableHlo.Run
import Idealize.ShloMosaic.PureOps.Ideal.Laws

noncomputable section

open scoped BigOperators

namespace Cert.ClassSqErr.KerRun

open Idealize.ShloMosaic Idealize.ShloMosaic.TcCoe Idealize.SL.Sem Idealize.ShloMosaic.ValueIdx
open Idealize.ShloMosaic.Pipeline (Dat)
open Cert.KernelIdeal Cert.KernelIdeal.Gen Cert.ClassSqErr.KerAcc Cert.ClassSqErr.KerFinal

variable (m : (ℓ : Loc nD τ sig) → Buf (Elt Ideal) ℓ) (ρ : Dev nD → PrngReg)

/-- The input windows' index maps, decided over the grid: point `t` reads block `(t / 8, 0, t mod 8, 0)`. -/
theorem in_idx : ∀ t : Fin cfg0.N,
    win0_0.index t (0 : Fin 4) = t.val / 8 ∧ win0_0.index t (1 : Fin 4) = 0
    ∧ win0_0.index t (2 : Fin 4) = t.val % 8 ∧ win0_0.index t (3 : Fin 4) = 0
    ∧ win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)

/-- The point as a tile number. -/
abbrev tileOf (t : Fin cfg0.N) : Fin 256 := ⟨t.val, lt_of_lt_of_eq t.isLt N_0⟩

/-- The prediction block a point reads is its tile of the prediction array. -/
theorem xblk_eq (c : Dev nD) (t : Fin cfg0.N) :
    (xblk m c t : STile.Idx → EReal) = fun y => m ((c : Thread nD τ).loc main_arg0) (tilePix (tileOf t) y) := by
  obtain ⟨e0, e1, e2, e3, -, -, -, -⟩ := in_idx t
  funext y
  show iblk m c 0 t y = _
  unfold iblk
  rw [View.read_apply]
  show V m c main_arg0 _ = m (c.tc.loc main_arg0) _
  unfold V
  congr 1
  funext a
  apply Fin.ext
  have hy0 : (y 0).val < 1 := (y 0).isLt
  have hy1 : (y 1).val < 1 := (y 1).isLt
  match a with
  | ⟨0, _⟩ => show win0_0.index t (0 : Fin 4) * 1 + 1 * (y 0).val = t.val / 8; omega
  | ⟨1, _⟩ => show win0_0.index t (1 : Fin 4) * 1 + 1 * (y 1).val = 0; omega
  | ⟨2, _⟩ => show win0_0.index t (2 : Fin 4) * 128 + 1 * (y 2).val = 128 * (t.val % 8) + (y 2).val; omega
  | ⟨3, _⟩ => show win0_0.index t (3 : Fin 4) * 1024 + 1 * (y 3).val = (y 3).val; omega

/-- The label block a point reads is its tile of the label array. -/
theorem gblk_eq (c : Dev nD) (t : Fin cfg0.N) :
    (gblk m c t : STile.Idx → BitVec 32) = fun y => m ((c : Thread nD τ).loc main_arg1) (tilePix (tileOf t) y) := by
  obtain ⟨-, -, -, -, e0, e1, e2, e3⟩ := in_idx t
  funext y
  show iblk m c 1 t y = _
  unfold iblk
  rw [View.read_apply]
  show V m c main_arg1 _ = m (c.tc.loc main_arg1) _
  unfold V
  congr 1
  funext a
  apply Fin.ext
  have hy0 : (y 0).val < 1 := (y 0).isLt
  have hy1 : (y 1).val < 1 := (y 1).isLt
  match a with
  | ⟨0, _⟩ => show win0_1.index t (0 : Fin 4) * 1 + 1 * (y 0).val = t.val / 8; omega
  | ⟨1, _⟩ => show win0_1.index t (1 : Fin 4) * 1 + 1 * (y 1).val = 0; omega
  | ⟨2, _⟩ => show win0_1.index t (2 : Fin 4) * 128 + 1 * (y 2).val = 128 * (t.val % 8) + (y 2).val; omega
  | ⟨3, _⟩ => show win0_1.index t (3 : Fin 4) * 1024 + 1 * (y 3).val = (y 3).val; omega

/-- The tiles' squared-error sums of class `k` add up to the class's sum over the pixel array. -/
theorem sum_sqAt (c : Dev nD) (k : ℕ) :
    ∑ t : Fin 256, sqAt m c k t.val
      = classSq (m ((c : Thread nD τ).loc main_arg0)) (m ((c : Thread nD τ).loc main_arg1)) k := by
  rw [classSq_eq_sum_tiles]
  refine Finset.sum_congr rfl fun t _ => ?_
  have ht : t.val < cfg0.N := lt_of_lt_of_eq t.isLt N_0.symm
  rw [sqAt, dif_pos ht, xblk_eq, gblk_eq]

/-- The tiles' counts of class `k` add up to the class's count over the pixel array. -/
theorem sum_cntAt (c : Dev nD) (k : ℕ) :
    ∑ t : Fin 256, cntAt m c k t.val = classCnt (m ((c : Thread nD τ).loc main_arg1)) k := by
  rw [classCnt_eq_sum_tiles]
  refine Finset.sum_congr rfl fun t _ => ?_
  have ht : t.val < cfg0.N := lt_of_lt_of_eq t.isLt N_0.symm
  rw [cntAt, dif_pos ht, gblk_eq]

/-- Class `k`'s entries of a 2 × 1 × 21 array: one per core. -/
def rowEmb (k : Fin 21) : Fin 2 ↪ S2x1x21.Idx :=
  ⟨fun a => ix3 a 0 k, fun a a' h => congrFun h 0⟩

/-- The entries the host's sum over the first two axes adds at class `k` are those two. -/
theorem filter_drop (k : Fin 21) :
    Finset.univ.filter (fun i : S2x1x21.Idx => reducesTo_S2x1x21_S21_d0_1.drop i = ix1 k)
      = Finset.univ.map (rowEmb k) := by
  ext i
  simp only [Finset.mem_filter, Finset.mem_univ, true_and, Finset.mem_map, rowEmb, Function.Embedding.coeFn_mk]
  constructor
  · intro h
    refine ⟨i 0, funext fun a => ?_⟩
    match a with
    | ⟨0, _⟩ => rfl
    | ⟨1, _⟩ => exact Fin.ext (by have h : (i 1).val < 1 := (i 1).isLt; show (0 : ℕ) = (i 1).val; omega)
    | ⟨2, _⟩ => exact (congrFun h 0).symm
  · rintro ⟨a, rfl⟩
    funext b
    match b with
    | ⟨0, _⟩ => rfl

/-- The host's sum of an output array over the cores, at class `k`. -/
theorem reduce_rows (x : S2x1x21.Idx → EReal) (k : Fin 21) :
    Host.reduceAdd (F := Ideal) (φ := .f32) x (constant (F := Ideal) S_ .f32 0x00000000#32) reducesTo_S2x1x21_S21_d0_1 h_S_ (ix1 k)
      = x (ix3 0 0 k) + x (ix3 1 0 k) := by
  show Ideal.hostReduceAdd _ _ _ (ix1 k) = _
  unfold Ideal.hostReduceAdd
  rw [filter_drop, Finset.sum_map, Fin.sum_univ_two]
  show Ideal.ofBits .f32 0x00000000#32 + _ = _
  rw [Ideal.ofBits_zero_f32, zero_add]
  rfl

/-- The host's squared-error total of class `k` is the class's sum over the pixel array. -/
theorem sq_total (c : Dev nD) (k : Fin 21) :
    Host.reduceAdd (F := Ideal) (φ := .f32) (sqOut m c) (constant (F := Ideal) S_ .f32 0x00000000#32) reducesTo_S2x1x21_S21_d0_1 h_S_ (ix1 k)
      = classSq (m ((c : Thread nD τ).loc main_arg0)) (m ((c : Thread nD τ).loc main_arg1)) k.val := by
  rw [reduce_rows, ← sum_sqAt, ← runAcc_halves]
  rfl

/-- The host's count total of class `k` is the class's count over the pixel array. -/
theorem cnt_total (c : Dev nD) (k : Fin 21) :
    Host.reduceAdd (F := Ideal) (φ := .f32) (cntOut m c) (constant (F := Ideal) S_ .f32 0x00000000#32) reducesTo_S2x1x21_S21_d0_1 h_S_ (ix1 k)
      = classCnt (m ((c : Thread nD τ).loc main_arg1)) k.val := by
  rw [reduce_rows, ← sum_cntAt, ← runAcc_halves]
  rfl

/-- What the kernel program returns: per class, the squared-error sum over the count raised to the smoothing constant. -/
def result (c : Dev nD) : S21.Idx → EReal :=
  ratio (fun j => classSq (m ((c : Thread nD τ).loc main_arg0)) (m ((c : Thread nD τ).loc main_arg1)) (j 0).val)
    (fun j => classCnt (m ((c : Thread nD τ).loc main_arg1)) (j 0).val)

/-- The host lines after the region compute it from the two output arrays. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have e2 : Pipeline.withArrays (cfgs 0).spec c (V0 m c) (fun w => (dats m 0 c).arrAt w (cfgs 0).N)
      (Proc.devRef .tc main_v0_0) = sqOut m c :=
    (Pipeline.withArrays_arr spec0 launch0.win.arr_inj c _ _ 2).trans (final2 m c)
  have e3 : Pipeline.withArrays (cfgs 0).spec c (V0 m c) (fun w => (dats m 0 c).arrAt w (cfgs 0).N)
      (Proc.devRef .tc main_v0_1) = cntOut m c :=
    (Pipeline.withArrays_arr spec0 launch0.win.arr_inj c _ _ 3).trans (final3 m c)
  rw [e2, e3]
  have hs : Host.reduceAdd (F := Ideal) (φ := .f32) (sqOut m c) (constant (F := Ideal) S_ .f32 0x00000000#32)
      reducesTo_S2x1x21_S21_d0_1 h_S_
        = fun j => classSq (m ((c : Thread nD τ).loc main_arg0)) (m ((c : Thread nD τ).loc main_arg1)) (j 0).val := by
    funext j
    obtain ⟨k, rfl⟩ : ∃ k : Fin 21, j = ix1 k := ⟨j 0, eq_ix1 j⟩
    exact sq_total m c k
  have hc : Host.reduceAdd (F := Ideal) (φ := .f32) (cntOut m c) (constant (F := Ideal) S_ .f32 0x00000000#32)
      reducesTo_S2x1x21_S21_d0_1 h_S_
        = fun j => classCnt (m ((c : Thread nD τ).loc main_arg1)) (j 0).val := by
    funext j
    obtain ⟨k, rfl⟩ : ∃ k : Fin 21, j = ix1 k := ⟨j 0, eq_ix1 j⟩
    exact cnt_total m c k
  rw [hs, hc]
  rfl

/-- The kernel program's run, read: its result at the per-class ratios, its arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.ClassSqErr.KerRun

end
-- ==== Proof.RefValue.lean ====
/-
  The reference's two class totals. Each `scatter` with an add body, of the flattened pixels into a zero vector of 21
  classes, is at class `k` zero plus the sum of the updates whose label word, read signed, is `k`: a label outside
  `0 … 20` lands outside the vector and is dropped. Flattening is a bijection of the pixels, so these are the
  per-class sums over the pixel array.
-/
import proofs.«400465_j7000796692659_3_alg».proof.Proof.Spec
import proofs.«400465_j7000796692659_3_alg».proof.Proof.Gen.ReferenceIdeal.Run
import proofs.«400465_j7000796692659_3_alg».proof.Proof.Gen.ReferenceIdeal.Read
import Idealize.ShloMosaic.PureOps.Ideal.Laws

noncomputable section

open scoped BigOperators

namespace Cert.ClassSqErr.Ref

open Idealize.ShloMosaic Idealize.ShloMosaic.ValueIdx Cert.ReferenceIdeal Cert.ReferenceIdeal.Gen

/-! ## The accumulating scatter read at one element -/

/-- At the extended reals the accumulating scatter, read at one element, is the operand's element plus the sum, over
    every update, of the update when its result index is that element and of zero when it is not. -/
private theorem scatterAdd_apply {φ : FTy} {s si su : Shape} (d : ScatterDims s si su) {w : Nat} (x : FVec Ideal s φ)
    (idx : IVec si w) (upd : FVec Ideal su φ) (i : s.Idx) :
    Host.scatterAdd d x idx upd i = x i + ∑ j : su.Idx, if d.resultIdx? j idx = some i then upd j else 0 := by
  show Ideal.hostScatterAdd d x idx upd i = _
  unfold Ideal.hostScatterAdd
  rw [Finset.sum_filter]

/-! ## The class scatter's dimension numbers

The operand is the vector of 21 classes, its one axis inserted (no window axis) and named by the one component of the
index vector; the scatter indices are a column of 33554432 label words, the updates one value per word. -/

/-- The dimension numbers of the two class scatters. -/
private abbrev classDims : ScatterDims S21 S33554432x1 S33554432 := scatter_S21_S33554432x1_S33554432_n_0_0_1

/-- The window of update `j` starts at the label word in row `j` of the column, read signed. -/
private theorem start_eq (j : S33554432.Idx) (idx : IVec S33554432x1 32) :
    classDims.start j idx 0 = (idx (ix2 (j 0) 0)).toInt := by
  unfold ScatterDims.start
  rw [dif_pos (show (0 : Fin 1) ∈ classDims.scatterDimsToOperandDims from List.mem_singleton.mpr rfl)]
  have hsi : classDims.siIdx j ⟨List.idxOf (0 : Fin 1) classDims.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: the window coordinate on it is zero. -/
private theorem window_eq (j : S33554432.Idx) : classDims.window j 0 = 0 := by
  unfold ScatterDims.window
  rw [dif_neg]
  decide

/-- Update `j` lands on class `i` exactly when its label word, read signed, is `i`; a word outside `0 … 20` lands on
    no class. -/
private theorem resultIdx_iff (j : S33554432.Idx) (idx : IVec S33554432x1 32) (i : S21.Idx) :
    classDims.resultIdx? j idx = some i ↔ (idx (ix2 (j 0) 0)).toInt = ((i 0).val : ℤ) := by
  have hi : (i 0).val < 21 := (i 0).isLt
  unfold ScatterDims.resultIdx?
  by_cases h : ∀ a, 0 ≤ classDims.start j idx a + classDims.window j a ∧
      classDims.start j idx a + classDims.window j a < S21.size a
  · rw [dif_pos h, Option.some.injEq]
    constructor
    · intro e
      have e0 := congrArg (fun f => ((f 0 : Fin 21).val : ℤ)) e
      simp only [start_eq, window_eq] at e0
      have h0 := (h 0).1
      rw [start_eq, window_eq] at h0
      rw [← e0]
      simp only [Nat.cast_zero, add_zero] at h0 ⊢
      exact (Int.toNat_of_nonneg h0).symm
    · intro e
      funext a
      obtain rfl : a = 0 := Subsingleton.elim _ _
      refine Fin.ext ?_
      show (classDims.start j idx 0 + (classDims.window j 0 : ℤ)).toNat = (i 0).val
      rw [start_eq, window_eq, e]
      simp
  · rw [dif_neg h]
    constructor
    · intro e; exact absurd e (by simp)
    · intro e
      exfalso
      apply h
      intro a
      obtain rfl : a = 0 := Subsingleton.elim _ _
      rw [start_eq, window_eq, e]
      show (0 : ℤ) ≤ ((i 0).val : ℤ) + ((0 : ℕ) : ℤ) ∧ ((i 0).val : ℤ) + ((0 : ℕ) : ℤ) < ((21 : ℕ) : ℤ)
      omega

/-- The class scatter read at class `i`: the operand's element plus the sum over the updates of those whose label
    word, read signed, is `i`. -/
private theorem scatter_read (x : FVec Ideal S21 .f32) (idx : IVec S33554432x1 32) (upd : FVec Ideal S33554432 .f32)
    (i : S21.Idx) :
    Host.scatterAdd classDims x idx upd i
      = x i + ∑ j : S33554432.Idx, if (idx (ix2 (j 0) 0)).toInt = ((i 0).val : ℤ) then upd j else 0 := by
  rw [scatterAdd_apply]
  refine congrArg (fun t => x i + t) ?_
  exact Finset.sum_congr rfl (fun j _ => if_congr (resultIdx_iff j idx i) rfl rfl)

/-! ## Flattening the pixels -/

/-- Flat position `n` is pixel `(n / 1024², 0, n / 1024 mod 1024, n mod 1024)`, and pixel `(b, 0, r, c)` is flat
    position `(1024 b + r) 1024 + c`: a bijection. -/
private def flatEquiv : S33554432.Idx ≃ SPix.Idx where
  toFun := Read.idx_main_v3
  invFun i := ix1 ⟨((i 0).val * 1024 + (i 2).val) * 1024 + (i 3).val, by
    have h0 : (i 0).val < 32 := (i 0).isLt
    have h2 : (i 2).val < 1024 := (i 2).isLt
    have h3 : (i 3).val < 1024 := (i 3).isLt
    omega⟩
  left_inv j := by
    funext a
    obtain rfl : a = 0 := Subsingleton.elim _ _
    refine Fin.ext ?_
    have h0 : (j 0).val < 33554432 := (j 0).isLt
    show ((j 0).val / 1048576 * 1024 + (j 0).val / 1024 % 1024) * 1024 + (j 0).val % 1024 = (j 0).val
    omega
  right_inv i := by
    have h0 : (i 0).val < 32 := (i 0).isLt
    have h1 : (i 1).val < 1 := (i 1).isLt
    have h2 : (i 2).val < 1024 := (i 2).isLt
    have h3 : (i 3).val < 1024 := (i 3).isLt
    funext a
    refine Fin.ext ?_
    match a with
    | ⟨0, _⟩ =>
      show (((i 0).val * 1024 + (i 2).val) * 1024 + (i 3).val) / 1048576 = (i 0).val
      omega
    | ⟨1, _⟩ =>
      show 0 = (i 1).val
      omega
    | ⟨2, _⟩ =>
      show (((i 0).val * 1024 + (i 2).val) * 1024 + (i 3).val) / 1024 % 1024 = (i 2).val
      omega
    | ⟨3, _⟩ =>
      show (((i 0).val * 1024 + (i 2).val) * 1024 + (i 3).val) % 1024 = (i 3).val
      omega

/-- A sum over the flat positions of a function of the pixel each one is, is the sum over the pixels. -/
private theorem sum_flat (f : SPix.Idx → EReal) :
    ∑ j : S33554432.Idx, f (Read.idx_main_v3 j) = ∑ i : SPix.Idx, f i :=
  Equiv.sum_comp flatEquiv f

/-! ## The scatters' operands at one position -/

/-- The label word in row `j` of the squared-error scatter's index column is the label of the pixel at flat
    position `j`. -/
private theorem idx6_apply (x1 : SPix.Idx → BitVec 32) (j : S33554432.Idx) :
    Read.val_main_v6 (F := Ideal) x1 (ix2 (j 0) 0) = x1 (Read.idx_main_v3 j) := by
  rw [Read.val_main_v6_apply, Read.val_main_v3_apply]

/-- The same for the count scatter's index column. -/
private theorem idx10_apply (x1 : SPix.Idx → BitVec 32) (j : S33554432.Idx) :
    Read.val_main_v10 (F := Ideal) x1 (ix2 (j 0) 0) = x1 (Read.idx_main_v3 j) := by
  rw [Read.val_main_v10_apply, Read.val_main_v3_apply]

/-- Update `j` of the squared-error scatter is the squared deviation of the pixel at flat position `j`. -/
private theorem upd4_apply (x0 : SPix.Idx → EReal) (x1 : SPix.Idx → BitVec 32) (j : S33554432.Idx) :
    Read.val_main_v4 (F := Ideal) x0 x1 j = dev2 (x0 (Read.idx_main_v3 j)) (x1 (Read.idx_main_v3 j)) := by
  rw [Read.val_main_v4_apply, Read.val_main_v2_apply, Read.val_main_v1_apply, Read.val_main_v0_apply]
  rfl

/-- The word `0x3F800000` is the number one. -/
private theorem one_f32 : Ideal.ofBits .f32 0x3F800000#32 = 1 := IdealRules.sign_bit.ideal_onePat .f32

/-- The squared-error scatter's operand is zero at every class. -/
private theorem zero_v5 (i : S21.Idx) : Read.val_main_v5 (F := Ideal) i = 0 := by
  rw [Read.val_main_v5_apply, Read.val_main_cst_apply, Ideal.ofBits_def, Ideal.ofBits_zero_f32]

/-- The count scatter's operand is zero at every class. -/
private theorem zero_v9 (i : S21.Idx) : Read.val_main_v9 (F := Ideal) i = 0 := by
  rw [Read.val_main_v9_apply, Read.val_main_cst_1_apply, Ideal.ofBits_def, Ideal.ofBits_zero_f32]

/-- Every update of the count scatter is one. -/
private theorem one_v8 (j : S33554432.Idx) : Read.val_main_v8 (F := Ideal) j = 1 := by
  rw [Read.val_main_v8_apply, Read.val_main_cst_0_apply, Ideal.ofBits_def, one_f32]

/-! ## The two class totals -/

/-- The reference's squared-error total of class `k`. -/
theorem sq_eq (x0 : SPix.Idx → EReal) (x1 : SPix.Idx → BitVec 32) (k : Fin 21) :
    Cert.ReferenceIdeal.Read.val_main_v7 (F := Ideal) x0 x1 (ix1 k) = classSq x0 x1 k.val := by
  unfold Read.val_main_v7
  rw [scatter_read, zero_v5, zero_add]
  refine Eq.trans ?_ (sum_flat (fun i => sqTerm k.val (x0 i) (x1 i)))
  refine Finset.sum_congr rfl (fun j _ => ?_)
  rw [idx6_apply, upd4_apply]
  rfl

/-- The reference's pixel count of class `k`. -/
theorem cnt_eq (x1 : SPix.Idx → BitVec 32) (k : Fin 21) :
    Cert.ReferenceIdeal.Read.val_main_v11 (F := Ideal) x1 (ix1 k) = classCnt x1 k.val := by
  unfold Read.val_main_v11
  rw [scatter_read, zero_v9, zero_add]
  refine Eq.trans ?_ (sum_flat (fun i => cntTerm k.val (x1 i)))
  refine Finset.sum_congr rfl (fun j _ => ?_)
  rw [idx10_apply, one_v8]
  rfl

end Cert.ClassSqErr.Ref

end
-- ==== Proof.lean ====
/-
  The kernel computes, per class, the mean squared error of a label image against a prediction image: one grid point
  per tile of 128 rows, each adding the tile's per-class squared-error sums and pixel counts into a 32 × 2 accumulator
  that a core zeroes at its first point and copies out (its first 21 rows) at its last; the host then adds the two
  cores' rows and divides. The reference scatters every pixel's squared deviation, and a one, into a zero vector of 21
  classes at the pixel's label, and divides the same way. Over the extended reals both are, per class `k`,
      (∑ over pixels with label k of (label − prediction)²) / max (number of pixels with label k) ε,
  a label outside 0 … 20 counting for no class on either side: the kernel's compare of the label against the class
  number is exact (an integer converted to a float is that integer), and the reference drops an update whose index
  lands outside the vector. The only law used is that a sum over the extended reals may be regrouped (tiles, cores,
  rows and columns against one flat pass), so the precondition is never opened. The idealized kernel is the kernel's
  own text read over the extended reals, so the preservation claim is trivial; the kernel's two frames are the generated
  ones and the reference's frame is its run.
-/
import proofs.«400465_j7000796692659_3_alg».proof.Defs
import proofs.«400465_j7000796692659_3_alg».proof.Proof.Gen.Kernel
import proofs.«400465_j7000796692659_3_alg».proof.Proof.Gen.Kernel.Frame
import proofs.«400465_j7000796692659_3_alg».proof.Proof.Gen.KernelIdeal
import proofs.«400465_j7000796692659_3_alg».proof.Proof.Gen.KernelIdeal.Frame
import proofs.«400465_j7000796692659_3_alg».proof.Proof.Gen.ReferenceIdeal
import proofs.«400465_j7000796692659_3_alg».proof.Proof.Gen.ReferenceIdeal.Run
import proofs.«400465_j7000796692659_3_alg».proof.Proof.Gen.ReferenceIdeal.Read
import proofs.«400465_j7000796692659_3_alg».proof.Proof.Gen.Pre_finite_inputs
import proofs.«400465_j7000796692659_3_alg».proof.Proof.KerRun
import proofs.«400465_j7000796692659_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx
open Cert.ClassSqErr

/-- The reference's result is the shared last step applied to the two per-class totals over the pixel array. -/
theorem reference_result (x0 : SPix.Idx → EReal) (x1 : SPix.Idx → BitVec 32) :
    Cert.ReferenceIdeal.Read.val_main_v14 (F := Ideal) x0 x1
      = ratio (fun j => classSq x0 x1 (j 0).val) (fun j => classCnt x1 (j 0).val) := by
  have hs : Cert.ReferenceIdeal.Read.val_main_v7 (F := Ideal) x0 x1 = fun j => classSq x0 x1 (j 0).val := by
    funext j
    obtain ⟨k, rfl⟩ : ∃ k : Fin 21, j = ix1 k := ⟨j 0, eq_ix1 j⟩
    exact Ref.sq_eq x0 x1 k
  have hc : Cert.ReferenceIdeal.Read.val_main_v11 (F := Ideal) x1 = fun j => classCnt x1 (j 0).val := by
    funext j
    obtain ⟨k, rfl⟩ : ∃ k : Fin 21, j = ix1 k := ⟨j 0, eq_ix1 j⟩
    exact Ref.cnt_eq x1 k
  rw [← hs, ← hc]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the same per-class ratios of arguments that agree. -/
theorem algebraic : Cert.algebraic_KernelIdeal_ReferenceIdeal := by
  intro m ρ m' ρ' _ hagree
  refine ⟨fun c => KerRun.result m c, KerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  exact reference_result _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
